-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S2x1x1 : Shape := ⟨3, ![2, 1, 1]⟩
abbrev S16384x128 : Shape := ⟨2, ![16384, 128]⟩
abbrev S1x1x1 : Shape := ⟨3, ![1, 1, 1]⟩
abbrev S1x1 : Shape := ⟨2, ![1, 1]⟩
abbrev S16384 : Shape := ⟨1, ![16384]⟩
abbrev S16384x1 : Shape := ⟨2, ![16384, 1]⟩
abbrev S1 : Shape := ⟨1, ![1]⟩
abbrev S8192x128 : Shape := ⟨2, ![8192, 128]⟩

abbrev nBuf : Space → Nat
  | .hbm => 6
  | .vmem => 12
  | .smem => 0
  | _ => 0

abbrev bufTy : (tb : Table) → Fin (tcTables nBuf tb) → BufTy
  | .hbm, ⟨0, _⟩ => ⟨S33554432, .f32⟩
  | .hbm, ⟨1, _⟩ => ⟨S262144x128, .f32⟩
  | .hbm, ⟨2, _⟩ => ⟨S2x1x1, .f32⟩
  | .hbm, ⟨3, _⟩ => ⟨S2x1x1, .f32⟩
  | .hbm, ⟨4, _⟩ => ⟨S262144x128, .f32⟩
  | .hbm, ⟨5, _⟩ => ⟨S33554432, .f32⟩
  | .local _ .vmem, ⟨0, _⟩ => ⟨S16384x128, .f32⟩
  | .local _ .vmem, ⟨1, _⟩ => ⟨S16384x128, .f32⟩
  | .local _ .vmem, ⟨2, _⟩ => ⟨S1x1x1, .f32⟩
  | .local _ .vmem, ⟨3, _⟩ => ⟨S1x1x1, .f32⟩
  | .local _ .vmem, ⟨4, _⟩ => ⟨S1x1x1, .f32⟩
  | .local _ .vmem, ⟨5, _⟩ => ⟨S1x1x1, .f32⟩
  | .local _ .vmem, ⟨6, _⟩ => ⟨S8192x128, .f32⟩
  | .local _ .vmem, ⟨7, _⟩ => ⟨S8192x128, .f32⟩
  | .local _ .vmem, ⟨8, _⟩ => ⟨S2x1x1, .f32⟩
  | .local _ .vmem, ⟨9, _⟩ => ⟨S2x1x1, .f32⟩
  | .local _ .vmem, ⟨10, _⟩ => ⟨S8192x128, .f32⟩
  | .local _ .vmem, ⟨11, _⟩ => ⟨S8192x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S33554432_S262144x128 : S33554432.ShapeCasts S262144x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  reduces_S16384x128_S16384 : S16384x128.Reduces [1] S16384
  shapeCasts_S16384_S16384x1 : S16384.ShapeCasts S16384x1
  reduces_S16384x1_S1 : S16384x1.Reduces [0] S1
  shapeCasts_S1_S1x1 : S1.ShapeCasts S1x1
  broadcasts_S1x1_S16384x128 : S1x1.Broadcasts S16384x128
  inb_S2x1x1_S2x1x1_0_0_0 : ∀ a, (![0, 0, 0] : Fin 3 → Nat) a + S2x1x1.size a ≤ S2x1x1.size a
  h_S2x1x1 : 0 < S2x1x1.numel
  shapeCasts_S2x1x1_S2x1x1 : S2x1x1.ShapeCasts S2x1x1
  slices_S2x1x1_o0_0_0_S1x1x1 : S2x1x1.Slices ![0, 0, 0] S1x1x1
  slices_S2x1x1_o1_0_0_S1x1x1 : S2x1x1.Slices ![1, 0, 0] S1x1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S1x1_S8192x128 : S1x1.Broadcasts S8192x128
  shapeCasts_S262144x128_S33554432 : S262144x128.ShapeCasts S33554432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S2x1x1.size a
  hwx0_1 : ∀ i : grid0.Coords, EltTy.bits .f32 = 32 ∨ (Rect.block (s := S2x1x1) S1x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S262144x128.size a
  hwx1_0 : ∀ i : grid1.Coords, EltTy.bits .f32 = 32 ∨ (Rect.block (s := S262144x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x1x1.size a ≤ S2x1x1.size a
  hwx1_1 : ∀ i : grid1.Coords, EltTy.bits .f32 = 32 ∨ (Rect.block (s := S2x1x1) S2x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x1x1.size a ≤ S2x1x1.size a
  hwx1_2 : ∀ i : grid1.Coords, EltTy.bits .f32 = 32 ∨ (Rect.block (s := S2x1x1) S2x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S262144x128.size a
  hwx1_3 : ∀ i : grid1.Coords, EltTy.bits .f32 = 32 ∨ (Rect.block (s := S262144x128) S8192x128.size (cc1_transform_3 i) (hinb1_3 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S2x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S2x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S33554432 : Shape := ⟨1, ![33554432]⟩
abbrev S_ : Shape := ⟨0, ![]⟩
abbrev S1 : Shape := ⟨1, ![1]⟩

abbrev nBuf : Space → Nat
  | .hbm => 14
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S33554432, .f32⟩
  | .hbm, ⟨7, _⟩ => ⟨S33554432, .f32⟩
  | .hbm, ⟨8, _⟩ => ⟨S33554432, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S33554432, .f32⟩
  | .hbm, ⟨13, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel
  bcast_S_S1 : S_.BroadcastsInDim S1 (![] : Fin 0 → Fin S1.rank)
  bcast_S1_S33554432_0 : S1.BroadcastsInDim S33554432 (![0] : Fin 1 → Fin S33554432.rank)

variable [Facts₀]

class Facts : Prop extends Facts₀ where

variable [Facts]
-- ==== Proof.OnlineDefs.lean ====
/-
  The online (one-pass) statistics of a softmax, as functions on the extended reals.

  A vector is consumed block by block. After each block two numbers are kept: the largest entry met so far, `m`, and
  the sum `l` of `exp (entry - m)` over every entry met so far. Taking in one more block `f` replaces `m` by
  `m' = max m (sup f)` and `l` by `exp (m - m') * l + ∑ exp (f y - m')`: the old sum is rescaled to the new maximum.
  Before any block `m = -∞`, and then the rescaling factor is taken to be `0` (the old sum is empty). Two such pairs,
  from two halves of the vector, are merged the same way, and `m + log l` of the merged pair is what the second pass
  subtracts from every entry before exponentiating.
-/
import Idealize.ShloMosaic.PureOps.Ideal

noncomputable section

namespace OnlineSoftmax

open Idealize.ShloMosaic

variable {ι : Type} [Fintype ι]

/-- The running maximum after one more block `f`: the larger of the old maximum and the block's supremum. -/
def stepM (m : EReal) (f : ι → EReal) : EReal := max m (⨆ y, f y)

/-- The running sum after one more block `f`: the old sum rescaled from the old maximum to the new one (by `0` when
    the old maximum is `-∞`: nothing has been summed yet), plus the block's own terms at the new maximum. -/
def stepL (m l : EReal) (f : ι → EReal) : EReal :=
  (if m = ⊥ then 0 else Ideal.exp (m - stepM m f)) * l + ∑ y, Ideal.exp (f y - stepM m f)

/-- The running maximum after blocks `g 0, …, g n`, started from `-∞`. -/
def runM (g : ℕ → ι → EReal) : ℕ → EReal
  | 0 => stepM ⊥ (g 0)
  | n + 1 => stepM (runM g n) (g (n + 1))

/-- The running sum after blocks `g 0, …, g n`, started from `0`. -/
def runL (g : ℕ → ι → EReal) : ℕ → EReal
  | 0 => stepL ⊥ 0 (g 0)
  | n + 1 => stepL (runM g n) (runL g n) (g (n + 1))

/-- Two halves' sums merged at the larger of their maxima. -/
def mergeL (m0 m1 l0 l1 : EReal) : EReal :=
  l0 * Ideal.exp (m0 - max m0 m1) + l1 * Ideal.exp (m1 - max m0 m1)

/-- What the second pass subtracts from every entry: the merged maximum plus the logarithm of the merged sum. -/
def shift (m0 m1 l0 l1 : EReal) : EReal := max m0 m1 + Ideal.log (mergeL m0 m1 l0 l1)

end OnlineSoftmax

end
-- ==== Proof.Payloads.lean ====
import proofs.«408562_j40991167873104_3_alg».proof.Proof.Gen.KernelIdeal.Skeleton
import proofs.«408562_j40991167873104_3_alg».proof.Proof.OnlineDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Cert.KernelIdeal Cert.KernelIdeal.Gen ValueIdx OnlineSoftmax

/-! ## One-cell shapes: every index is the zero index -/

/-- A [1, 1] array has one index. -/
theorem idx_1x1 (y : S1x1.Idx) : y = ix2 (0 : Fin 1) (0 : Fin 1) := by
  obtain ⟨a, b, rfl⟩ : ∃ (a b : Fin 1), y = ix2 a b := ⟨y 0, y 1, eq_ix2 y⟩
  obtain rfl : a = 0 := Subsingleton.elim _ _
  obtain rfl : b = 0 := Subsingleton.elim _ _
  rfl

/-- A [1, 1, 1] array has one index. -/
theorem idx_1x1x1 (z : S1x1x1.Idx) : z = ix3 (0 : Fin 1) (0 : Fin 1) (0 : Fin 1) := by
  obtain ⟨a, b, c, rfl⟩ : ∃ (a b c : Fin 1), z = ix3 a b c := ⟨z 0, z 1, z 2, eq_ix3 z⟩
  obtain rfl : a = 0 := Subsingleton.elim _ _
  obtain rfl : b = 0 := Subsingleton.elim _ _
  obtain rfl : c = 0 := Subsingleton.elim _ _
  rfl

/-! ## The constants -/

/-- The word 0xFF800000 is -∞. -/
theorem ofBits_neg_inf : Ideal.ofBits .f32 0xFF800000#32 = (⊥ : EReal) := by
  simp [Ideal.ofBits, Ideal.ieee]

/-! ## Layout operations between the one-cell shapes, read at their one index -/

section Layout
variable {α : Type}

/-- A [1, 1, 1] cell viewed as [1, 1] reads the cell. -/
theorem cast_cell_3_2 (v : S1x1x1.Idx → α) (h : S1x1x1.ShapeCasts S1x1) (y : S1x1.Idx) :
    shapeCast S1x1 v h y = v (ix3 0 0 0) := by
  rw [idx_1x1 y]
  exact shapeCast_1ab_ab_apply v h 0 0

/-- A [1, 1] cell viewed as [1, 1, 1] reads the cell. -/
theorem cast_cell_2_3 (v : S1x1.Idx → α) (h : S1x1.ShapeCasts S1x1x1) (z : S1x1x1.Idx) :
    shapeCast S1x1x1 v h z = v (ix2 0 0) := by
  rw [idx_1x1x1 z]
  exact shapeCast_ab_1ab_apply v h 0 0 0

/-- A [1] cell viewed as [1, 1] reads the cell. -/
theorem cast_cell_1_2 (v : S1.Idx → α) (h : S1.ShapeCasts S1x1) (y : S1x1.Idx) :
    shapeCast S1x1 v h y = v (ix1 0) := by
  rw [idx_1x1 y]
  exact shapeCast_a_1a_apply v h 0 0

/-- The first of two stacked cells, cut out and viewed as [1, 1]. -/
theorem half0 (v : S2x1x1.Idx → α) (h2 : S2x1x1.Slices ![0, 0, 0] S1x1x1)
    (h3 : S1x1x1.ShapeCasts S1x1) (y : S1x1.Idx) :
    shapeCast S1x1 (extractStridedSlice S1x1x1 ![0, 0, 0] v h2) h3 y = v (ix3 0 0 0) := by
  rw [cast_cell_3_2]
  exact extractStridedSlice_apply _ v h2 _ _ (fun ax => by
    match ax with
    | ⟨0, _⟩ => rfl
    | ⟨1, _⟩ => rfl
    | ⟨2, _⟩ => rfl)

/-- The second of two stacked cells, cut out and viewed as [1, 1]. -/
theorem half1 (v : S2x1x1.Idx → α) (h2 : S2x1x1.Slices ![1, 0, 0] S1x1x1)
    (h3 : S1x1x1.ShapeCasts S1x1) (y : S1x1.Idx) :
    shapeCast S1x1 (extractStridedSlice S1x1x1 ![1, 0, 0] v h2) h3 y = v (ix3 1 0 0) := by
  rw [cast_cell_3_2]
  exact extractStridedSlice_apply _ v h2 _ _ (fun ax => by
    match ax with
    | ⟨0, _⟩ => rfl
    | ⟨1, _⟩ => rfl
    | ⟨2, _⟩ => rfl)

/-- One cell broadcast over a matrix reads the cell everywhere. -/
theorem bcast_cell {a b : ℕ} (v : S1x1.Idx → α) (h : S1x1.Broadcasts ⟨2, ![a, b]⟩) (y : (⟨2, ![a, b]⟩ : Shape).Idx) :
    broadcastTo ⟨2, ![a, b]⟩ v h y = v (ix2 0 0) :=
  broadcastTo_apply v h y (ix2 0 0) (fun ax => by
    match ax with
    | ⟨0, _⟩ => rfl
    | ⟨1, _⟩ => rfl)

end Layout

/-- The exponential of a vector, at an index. -/
theorem vexp_apply {s : Shape} {φ : FTy} (x : FVec Ideal s φ) (i : s.Idx) : exp x i = Ideal.exp (x i) := rfl
/-- The logarithm of a vector, at an index. -/
theorem vlog_apply {s : Shape} {φ : FTy} (x : FVec Ideal s φ) (i : s.Idx) : log x i = Ideal.log (x i) := rfl

/-! ## The two-stage reductions over a block of rows and lanes -/

section Reduce
variable {α : Type}

/-- A column of rows viewed as a one-lane matrix reads the row. -/
theorem cast_col {a : ℕ} (v : (⟨1, ![a]⟩ : Shape).Idx → α) (h : (⟨1, ![a]⟩ : Shape).ShapeCasts ⟨2, ![a, 1]⟩)
    (r : Fin a) (u : Fin 1) : shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- Reducing the lanes: the index over row r with lane l put back is (r, l). -/
theorem lift_lane {a b : ℕ} (h : (⟨2, ![a, b]⟩ : Shape).Reduces [1] ⟨1, ![a]⟩) (r : Fin a) (l : Fin b) :
    h.lift (ix1 r) l = ix2 r l := by
  funext c
  match c with
  | ⟨0, _⟩ => exact Fin.ext rfl
  | ⟨1, _⟩ => exact Fin.ext rfl

/-- Reducing the rows of a one-lane matrix: the index over the one cell with row r put back is (r, 0). -/
theorem lift_row {a : ℕ} (h : (⟨2, ![a, 1]⟩ : Shape).Reduces [0] ⟨1, ![1]⟩) (r : Fin a) :
    h.lift (ix1 (0 : Fin 1)) r = ix2 r (0 : Fin 1) := by
  funext c
  match c with
  | ⟨0, _⟩ => exact Fin.ext rfl
  | ⟨1, _⟩ => exact Fin.ext rfl

end Reduce

/-- The maximum over the rows of the maxima over the lanes, both started from -∞, is the supremum of the block. -/
theorem fold_fold_eq_iSup {a b : ℕ} (g : (⟨2, ![a, b]⟩ : Shape).Idx → EReal) :
    (Finset.univ : Finset (Fin a)).fold max ⊥
        (fun r => (Finset.univ : Finset (Fin b)).fold max ⊥ (fun l => g (ix2 r l)))
      = ⨆ y, g y := by
  refine eq_of_forall_ge_iff fun c => ?_
  rw [Finset.fold_max_le, iSup_le_iff]
  constructor
  · rintro ⟨_, h⟩ y
    rw [eq_ix2 y]
    exact ((Finset.fold_max_le c).mp (h (y 0) (Finset.mem_univ _))).2 (y 1) (Finset.mem_univ _)
  · intro h
    exact ⟨bot_le, fun r _ => (Finset.fold_max_le c).mpr ⟨bot_le, fun l _ => h _⟩⟩

/-- The maximum over the lanes of row r, from -∞. -/
theorem lanes_max (w : FVec Ideal S16384x128 .f32) (h2 : S16384x128.Reduces [1] S16384) (hφ : FKind.Formats .f32)
    (hacc : (0xFF800000#32 : BitVec 32) = FKind.maximumf.neutral .f32 hφ) (r : Fin 16384) :
    multiReduction (F := Ideal) .maximumf [1] S16384 w 0xFF800000#32 h2 hφ hacc (ix1 r)
      = (Finset.univ : Finset (Fin 128)).fold max ⊥ (fun l => w (ix2 r l)) := by
  have e : multiReduction (F := Ideal) .maximumf [1] S16384 w 0xFF800000#32 h2 hφ hacc (ix1 r)
      = (Finset.univ : Finset (Fin 128)).fold max (Ideal.ofBits .f32 0xFF800000#32)
          (fun l => w (h2.lift (ix1 r) l)) :=
    Ideal.multiReduction_maximumf_single w 0xFF800000#32 h2 hφ hacc (ix1 r)
  rw [e, ofBits_neg_inf]
  exact Finset.fold_congr (fun l _ => congrArg w (lift_lane h2 r l))

/-- The maximum over the rows of a one-lane matrix, from -∞, at the one cell. -/
theorem rows_max (u : FVec Ideal S16384x1 .f32) (h4 : S16384x1.Reduces [0] S1) (hφ : FKind.Formats .f32)
    (hacc : (0xFF800000#32 : BitVec 32) = FKind.maximumf.neutral .f32 hφ) :
    multiReduction (F := Ideal) .maximumf [0] S1 u 0xFF800000#32 h4 hφ hacc (ix1 (0 : Fin 1))
      = (Finset.univ : Finset (Fin 16384)).fold max ⊥ (fun r => u (ix2 r (0 : Fin 1))) := by
  have e : multiReduction (F := Ideal) .maximumf [0] S1 u 0xFF800000#32 h4 hφ hacc (ix1 (0 : Fin 1))
      = (Finset.univ : Finset (Fin 16384)).fold max (Ideal.ofBits .f32 0xFF800000#32)
          (fun r => u (h4.lift (ix1 (0 : Fin 1)) r)) :=
    Ideal.multiReduction_maximumf_single u 0xFF800000#32 h4 hφ hacc (ix1 (0 : Fin 1))
  rw [e, ofBits_neg_inf]
  exact Finset.fold_congr (fun r _ => congrArg u (lift_row h4 r))

/-- The sum over the lanes of row r. -/
theorem lanes_sum (w : FVec Ideal S16384x128 .f32) (h2 : S16384x128.Reduces [1] S16384) (hφ : FKind.Formats .f32)
    (hacc : (0x00000000#32 : BitVec 32) = FKind.add.neutral .f32 hφ) (r : Fin 16384) :
    multiReduction (F := Ideal) .add [1] S16384 w 0x00000000#32 h2 hφ hacc (ix1 r)
      = ∑ l : Fin 128, w (ix2 r l) := by
  have e : multiReduction (F := Ideal) .add [1] S16384 w 0x00000000#32 h2 hφ hacc (ix1 r)
      = ∑ l : Fin 128, w (h2.lift (ix1 r) l) :=
    Ideal.multiReduction_add_single w 0x00000000#32 h2 hφ hacc (ix1 r)
  rw [e]
  exact Finset.sum_congr rfl (fun l _ => congrArg w (lift_lane h2 r l))

/-- The sum over the rows of a one-lane matrix, at the one cell. -/
theorem rows_sum (u : FVec Ideal S16384x1 .f32) (h4 : S16384x1.Reduces [0] S1) (hφ : FKind.Formats .f32)
    (hacc : (0x00000000#32 : BitVec 32) = FKind.add.neutral .f32 hφ) :
    multiReduction (F := Ideal) .add [0] S1 u 0x00000000#32 h4 hφ hacc (ix1 (0 : Fin 1))
      = ∑ r : Fin 16384, u (ix2 r (0 : Fin 1)) := by
  have e : multiReduction (F := Ideal) .add [0] S1 u 0x00000000#32 h4 hφ hacc (ix1 (0 : Fin 1))
      = ∑ r : Fin 16384, u (h4.lift (ix1 (0 : Fin 1)) r) :=
    Ideal.multiReduction_add_single u 0x00000000#32 h4 hφ hacc (ix1 (0 : Fin 1))
  rw [e]
  exact Finset.sum_congr rfl (fun r _ => congrArg u (lift_row h4 r))

/-- The lane maxima of a block, reduced again over the rows, at the one cell: the block's supremum. -/
theorem block_max (w : FVec Ideal S16384x128 .f32) (h2 : S16384x128.Reduces [1] S16384)
    (h3 : S16384.ShapeCasts S16384x1) (h4 : S16384x1.Reduces [0] S1) (hφ : FKind.Formats .f32)
    (hacc : (0xFF800000#32 : BitVec 32) = FKind.maximumf.neutral .f32 hφ) :
    multiReduction (F := Ideal) .maximumf [0] S1
        (shapeCast S16384x1 (multiReduction (F := Ideal) .maximumf [1] S16384 w 0xFF800000#32 h2 hφ hacc) h3)
        0xFF800000#32 h4 hφ hacc (ix1 (0 : Fin 1))
      = ⨆ y, w y := by
  rw [rows_max, ← fold_fold_eq_iSup w]
  refine Finset.fold_congr (fun r _ => ?_)
  rw [cast_col]
  exact lanes_max w h2 hφ hacc r

/-- The lane sums of a block, summed again over the rows, at the one cell: the block's total. -/
theorem block_sum (w : FVec Ideal S16384x128 .f32) (h2 : S16384x128.Reduces [1] S16384)
    (h3 : S16384.ShapeCasts S16384x1) (h4 : S16384x1.Reduces [0] S1) (hφ : FKind.Formats .f32)
    (hacc : (0x00000000#32 : BitVec 32) = FKind.add.neutral .f32 hφ) :
    multiReduction (F := Ideal) .add [0] S1
        (shapeCast S16384x1 (multiReduction (F := Ideal) .add [1] S16384 w 0x00000000#32 h2 hφ hacc) h3)
        0x00000000#32 h4 hφ hacc (ix1 (0 : Fin 1))
      = ∑ y, w y := by
  rw [rows_sum, sum_idx2 w]
  refine Finset.sum_congr rfl (fun r _ => ?_)
  rw [cast_col]
  exact lanes_sum w h2 hφ hacc r

/-- The comparison with -∞ selects 0 exactly when the old maximum is -∞. -/
theorem select_oeq_bot (m e : EReal) :
    Scalar.select (Ideal.cmp .oeq m ⊥) (0 : EReal) e = if m = ⊥ then 0 else e := by
  by_cases hm : m = ⊥ <;> simp [Scalar.select, Ideal.cmp, hm]

/-- The first pass's new maximum, at its one entry: one online step of the maximum over the block. -/
theorem pay6_apply (x : Vec Ideal S16384x128 .f32) (v9 : Vec Ideal S1x1x1 .f32) (z : S1x1.Idx) :
    k0_pay6 (F := Ideal) x v9 z = stepM (v9 (ix3 0 0 0)) x := by
  unfold k0_pay6 k0_pay5 k0_pay4
  simp only [maximumf_apply, cast_cell_3_2, cast_cell_1_2, shapeCast_self]
  exact congrArg (max _) (block_max x _ _ _ _ _)

/-- The old maximum, re-laid from a 1x1x1 cell to one row of one lane. -/
theorem pay5_apply (v9 : Vec Ideal S1x1x1 .f32) (y : S1x1.Idx) : k0_pay5 (F := Ideal) v9 y = v9 (ix3 0 0 0) :=
  cast_cell_3_2 v9 _ y

/-- A word read as a scalar at the ideal values is the extended real it encodes. -/
theorem scalar_ofBits (b : BitVec 32) : Scalar.ofBits (F := Ideal) .f32 b = Ideal.ofBits .f32 b := rfl

/-- The first pass's new sum, at its one entry: one online step of the sum over the block. -/
theorem pay7_apply (x : Vec Ideal S16384x128 .f32) (v9 v25 : Vec Ideal S1x1x1 .f32) (z : S1x1x1.Idx) :
    k0_pay7 (F := Ideal) x v9 v25 z = stepL (v9 (ix3 0 0 0)) (v25 (ix3 0 0 0)) x := by
  unfold k0_pay7
  simp only [cast_cell_2_3, addf_apply, mulf_apply, select_apply, cmpf_apply, broadcast_apply, vexp_apply,
    subf_apply, cast_cell_3_2, cast_cell_1_2, pay5_apply, pay6_apply, Ideal.cmpf_def, scalar_ofBits,
    ofBits_neg_inf, Ideal.ofBits_zero_f32, select_oeq_bot]
  unfold stepL
  refine congrArg (fun t : EReal =>
    (if v9 (ix3 0 0 0) = ⊥ then 0 else Ideal.exp (v9 (ix3 0 0 0) - stepM (v9 (ix3 0 0 0)) x)) * v25 (ix3 0 0 0) + t) ?_
  refine (block_sum _ _ _ _ _ _).trans ?_
  refine Finset.sum_congr rfl (fun y _ => ?_)
  show Ideal.exp (k0_pay4 x y - broadcastTo S16384x128 (k0_pay6 x v9) _ y) = _
  rw [bcast_cell, pay6_apply]
  unfold k0_pay4
  rw [shapeCast_self]

/-- The stored maximum is the computed one, re-laid from one row of one lane to a 1x1x1 cell. -/
theorem pay1_apply (v11 : FVec Ideal S1x1 .f32) (z : S1x1x1.Idx) : k0_pay1 (F := Ideal) v11 z = v11 (ix2 0 0) :=
  cast_cell_2_3 v11 _ z

/-- The maximum's reset value is `-∞`. -/
theorem pay2_apply (z : S1x1x1.Idx) : k0_pay2 (F := Ideal) z = (⊥ : EReal) := by
  unfold k0_pay2
  simp only [cast_cell_2_3, broadcast_apply]
  exact ofBits_neg_inf

/-- The sum's reset value is `0`. -/
theorem pay3_apply (z : S1x1x1.Idx) : k0_pay3 (F := Ideal) z = (0 : EReal) := by
  unfold k0_pay3
  simp only [cast_cell_2_3, broadcast_apply]
  exact Ideal.ofBits_zero_f32

/-- The second pass's stored value at an entry: the entry minus the merged shift, exponentiated. -/
theorem pay_norm_apply (v0 v2 : Vec Ideal S2x1x1 .f32) (v22 : Vec Ideal S8192x128 .f32) (y : S8192x128.Idx) :
    k1_pay1 (F := Ideal) v0 v2 v22 y
      = Ideal.exp (v22 y - shift (v0 (ix3 0 0 0)) (v0 (ix3 1 0 0)) (v2 (ix3 0 0 0)) (v2 (ix3 1 0 0))) := by
  unfold k1_pay1
  simp only [vexp_apply, vlog_apply, subf_apply, addf_apply, mulf_apply, maximumf_apply, shapeCast_self, bcast_cell,
    half0, half1]
  rfl

end Cert.KernelIdeal.Payloads

end
-- ==== Proof.Stats.lean ====
/-
  The first pass, read back.

  The first call walks sixteen blocks of 16384 rows, eight to each half of the input; at a half's first block it resets
  its two one-entry outputs (the running maximum to `-∞`, the running sum to `0`), at every block it takes one online
  step, and it writes the pair back after the half's last block. So after point `n` the two staging cells hold the online
  fold over the blocks of `n`'s half up to `n`, and after the call entry `h` of each statistics array holds the fold over
  all eight blocks of half `h`.
-/
import proofs.«408562_j40991167873104_3_alg».proof.Proof.Gen.KernelIdeal.Frame
import proofs.«408562_j40991167873104_3_alg».proof.Proof.Payloads
import Idealize.ShloMosaic.Lib.Pipeline.Value
import Idealize.ShloMosaic.Lib.Tactic

set_option maxRecDepth 16384

noncomputable section

namespace Cert.KernelIdeal.Stats

open Idealize.ShloMosaic Idealize.ShloMosaic.TcCoe Idealize.ShloMosaic.Tactic Idealize.SL.Sem
open Idealize.ShloMosaic.Pipeline (Dat)
open Cert.KernelIdeal Cert.KernelIdeal.Gen ValueIdx OnlineSoftmax

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-- Away from a half's first block the maximum's cell, holding `xo1`, is left at the step's new maximum. -/
theorem out_B_1 (c : Dev nD) (i : grid0.Coords) (a2 : Memref sig .tc .vmem S16384x128 .f32) (h2 : a2.IsWhole)
    (a3 : Memref sig .tc .vmem S1x1x1 .f32) (h3 : a3.IsWhole) (a4 : Memref sig .tc .vmem S1x1x1 .f32) (h4 : a4.IsWhole)
    (hc : ¬cond0_0 i) (x : Vec F S16384x128 .f32) (xo1 xo2 : Vec F S1x1x1 .f32) :
    out0_B_1 c i a2 h2 a3 h3 a4 h4 hc x xo1 xo2 = k0_pay1 (k0_pay6 x xo1) := by
  unfold out0_B_1
  rw [View.read_writes_eq_canon _ _ _ (cover0_B_1 c i a2 h2 a3 h3 a4 h4 hc x xo1 xo2)]
  unfold kernelRun0_B
  dsimp only
  sl_unfold_words
  rw [View.canon_unit_zero hz3]
  simp only [View.readAt_eq_ld, h2.read_unread, h3.read_unread, h4.read_unread,
    View.ld_unit_zero (S := S16384x128) hz2, View.ld_unit_zero (S := S1x1x1) hz3]

/-- Away from a half's first block the sum's cell, holding `xo2`, is left at the step's new sum. -/
theorem out_B_2 (c : Dev nD) (i : grid0.Coords) (a2 : Memref sig .tc .vmem S16384x128 .f32) (h2 : a2.IsWhole)
    (a3 : Memref sig .tc .vmem S1x1x1 .f32) (h3 : a3.IsWhole) (a4 : Memref sig .tc .vmem S1x1x1 .f32) (h4 : a4.IsWhole)
    (hc : ¬cond0_0 i) (x : Vec F S16384x128 .f32) (xo1 xo2 : Vec F S1x1x1 .f32) :
    out0_B_2 c i a2 h2 a3 h3 a4 h4 hc x xo1 xo2 = k0_pay7 x xo1 xo2 := by
  unfold out0_B_2
  rw [View.read_writes_eq_canon _ _ _ (cover0_B_2 c i a2 h2 a3 h3 a4 h4 hc x xo1 xo2)]
  unfold kernelRun0_B
  dsimp only
  sl_unfold_words
  rw [View.canon_unit_zero hz3]
  simp only [View.readAt_eq_ld, h2.read_unread, h3.read_unread, h4.read_unread,
    View.ld_unit_zero (S := S16384x128) hz2, View.ld_unit_zero (S := S1x1x1) hz3]

/-- At a half's first block the maximum's cell is reset to `-∞` and then takes the step from there. -/
theorem out_A_1 (c : Dev nD) (i : grid0.Coords) (a2 : Memref sig .tc .vmem S16384x128 .f32) (h2 : a2.IsWhole)
    (a3 : Memref sig .tc .vmem S1x1x1 .f32) (h3 : a3.IsWhole) (a4 : Memref sig .tc .vmem S1x1x1 .f32) (h4 : a4.IsWhole)
    (hc : cond0_0 i) (x : Vec F S16384x128 .f32) :
    out0_A_1 c i a2 h2 a3 h3 a4 h4 hc x = k0_pay1 (k0_pay6 x k0_pay2) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x1x1) hz3]
  simp only [View.readAt_eq_ld, h2.read_unread, View.ld_unit_zero (S := S16384x128) hz2,
    View.readCov_unit_zero (S := S1x1x1) _ hz3]

/-- At a half's first block the sum's cell is reset to `0` and then takes the step from `(-∞, 0)`. -/
theorem out_A_2 (c : Dev nD) (i : grid0.Coords) (a2 : Memref sig .tc .vmem S16384x128 .f32) (h2 : a2.IsWhole)
    (a3 : Memref sig .tc .vmem S1x1x1 .f32) (h3 : a3.IsWhole) (a4 : Memref sig .tc .vmem S1x1x1 .f32) (h4 : a4.IsWhole)
    (hc : cond0_0 i) (x : Vec F S16384x128 .f32) :
    out0_A_2 c i a2 h2 a3 h3 a4 h4 hc x = k0_pay7 x k0_pay2 k0_pay3 := by
  unfold out0_A_2
  rw [View.read_writes_eq_canon _ _ _ (cover0_A_2 c i a2 h2 a3 h3 a4 h4 hc x)]
  unfold kernelRun0_A
  dsimp only
  sl_unfold_words
  rw [View.canon_cons_unit_zero (S := S1x1x1) hz3]
  simp only [View.readAt_eq_ld, h2.read_unread, View.ld_unit_zero (S := S16384x128) hz2,
    View.readCov_unit_zero (S := S1x1x1) _ hz3]

end Pieces

section Value
variable (V : (c : Dev nD) → (b : Ref sig .tc) → Buf (Elt Ideal) ((c : Thread nD τ).loc b))

/-- The block of rows the first call reads at point `t`. -/
abbrev xblk (c : Dev nD) (t : Fin cfg0.N) : Vec Ideal S16384x128 .f32 := iblk0 V c 0 t

/-- The same by the point's number (zero past the grid, where nothing is read). -/
def pblk (c : Dev nD) (n : ℕ) : S16384x128.Idx → EReal :=
  if hn : n < cfg0.N then xblk V c ⟨n, hn⟩ else fun _ => 0

theorem pblk_of_lt (c : Dev nD) (n : ℕ) (hn : n < cfg0.N) : pblk V c n = xblk V c ⟨n, hn⟩ := dif_pos hn

/-- Half `h`'s blocks in the order the call meets them: block `j` of the half is point `8 h + j`'s. -/
def half (c : Dev nD) (h : ℕ) : ℕ → S16384x128.Idx → EReal := fun j => pblk V c (8 * h + j)

/-- A half's first step, on any block: from the reset cells `(-∞, 0)`. -/
theorem step_first (x : Vec Ideal S16384x128 .f32) :
    ((k0_pay1 (F := Ideal) (k0_pay6 x (k0_pay2 (F := Ideal))) : Vec Ideal S1x1x1 .f32),
      (k0_pay7 (F := Ideal) x (k0_pay2 (F := Ideal)) (k0_pay3 (F := Ideal)) : Vec Ideal S1x1x1 .f32))
    = (((fun _ => stepM ⊥ x) : Vec Ideal S1x1x1 .f32), ((fun _ => stepL ⊥ 0 x) : Vec Ideal S1x1x1 .f32)) := by
  refine Prod.ext (funext fun z => ?_) (funext fun z => ?_)
  · show k0_pay1 (F := Ideal) (k0_pay6 x (k0_pay2 (F := Ideal))) z = stepM ⊥ x
    rw [Payloads.pay1_apply, Payloads.pay6_apply, Payloads.pay2_apply]
  · show k0_pay7 (F := Ideal) x (k0_pay2 (F := Ideal)) (k0_pay3 (F := Ideal)) z = stepL ⊥ 0 x
    rw [Payloads.pay7_apply, Payloads.pay2_apply, Payloads.pay3_apply]

/-- A later step, on any block: from cells holding `m` and `l`. -/
theorem step_next (x : Vec Ideal S16384x128 .f32) (m l : EReal) :
    ((k0_pay1 (F := Ideal) (k0_pay6 x ((fun _ => m) : Vec Ideal S1x1x1 .f32)) : Vec Ideal S1x1x1 .f32),
      (k0_pay7 (F := Ideal) x ((fun _ => m) : Vec Ideal S1x1x1 .f32) ((fun _ => l) : Vec Ideal S1x1x1 .f32) : Vec Ideal S1x1x1 .f32))
    = (((fun _ => stepM m x) : Vec Ideal S1x1x1 .f32), ((fun _ => stepL m l x) : Vec Ideal S1x1x1 .f32)) := by
  refine Prod.ext (funext fun z => ?_) (funext fun z => ?_)
  · show k0_pay1 (F := Ideal) (k0_pay6 x ((fun _ => m) : Vec Ideal S1x1x1 .f32)) z = stepM m x
    rw [Payloads.pay1_apply, Payloads.pay6_apply]
  · show k0_pay7 (F := Ideal) x ((fun _ => m) : Vec Ideal S1x1x1 .f32) ((fun _ => l) : Vec Ideal S1x1x1 .f32) z = stepL m l x
    rw [Payloads.pay7_apply]

/-- What the two cells hold after a half's first point: the fold's first step. -/
theorem outsAt_first (c : Dev nD) (n : ℕ) (hn : n < cfg0.N) (h0 : n % 8 = 0) :
    outsAt0 V c n hn = (((fun _ => runM (half V c (n / 8)) (n % 8)) : Vec Ideal S1x1x1 .f32),
      ((fun _ => runL (half V c (n / 8)) (n % 8)) : Vec Ideal S1x1x1 .f32)) := by
  have e : half V c (n / 8) 0 = xblk V c ⟨n, hn⟩ := by
    unfold half; rw [show 8 * (n / 8) + 0 = n by omega]; exact pblk_of_lt V c n hn
  rw [outsAt0_A V c ⟨n, hn⟩ h0, out_A_1, out_A_2, h0]
  refine (step_first (xblk V c ⟨n, hn⟩)).trans ?_
  rw [← e]
  rfl

/-- What the two cells hold after point `n`: the online fold over the blocks of `n`'s half up to `n` — by induction on the
    point, a half's first point starting the fold anew and every other point taking one step from the point before. -/
theorem outsAt_eq (c : Dev nD) : ∀ (n : ℕ) (hn : n < cfg0.N),
    outsAt0 V c n hn = (((fun _ => runM (half V c (n / 8)) (n % 8)) : Vec Ideal S1x1x1 .f32),
      ((fun _ => runL (half V c (n / 8)) (n % 8)) : Vec Ideal S1x1x1 .f32))
  | 0, hn => outsAt_first V c 0 hn rfl
  | k + 1, hn => by
    by_cases h0 : (k + 1) % 8 = 0
    · exact outsAt_first V c (k + 1) hn h0
    · have ih := outsAt_eq c k (Nat.lt_of_succ_lt hn)
      obtain ⟨r, hr⟩ : ∃ r, (k + 1) % 8 = r + 1 := ⟨(k + 1) % 8 - 1, by omega⟩
      have hk : k % 8 = r := by omega
      have hd : k / 8 = (k + 1) / 8 := by omega
      have e : half V c ((k + 1) / 8) (r + 1) = xblk V c ⟨k + 1, hn⟩ := by
        unfold half; rw [show 8 * ((k + 1) / 8) + (r + 1) = k + 1 by omega]; exact pblk_of_lt V c (k + 1) hn
      rw [outsAt0_B V c ⟨k + 1, hn⟩ h0, out_B_1, out_B_2]
      show ((k0_pay1 (F := Ideal) (k0_pay6 (xblk V c ⟨k + 1, hn⟩) (outsAt0 V c k (Nat.lt_of_succ_lt hn)).1) : Vec Ideal S1x1x1 .f32),
          (k0_pay7 (F := Ideal) (xblk V c ⟨k + 1, hn⟩) (outsAt0 V c k (Nat.lt_of_succ_lt hn)).1
            (outsAt0 V c k (Nat.lt_of_succ_lt hn)).2 : Vec Ideal S1x1x1 .f32)) = _
      rw [ih, hk, hd, hr]
      refine (step_next (xblk V c ⟨k + 1, hn⟩) (runM (half V c ((k + 1) / 8)) r) (runL (half V c ((k + 1) / 8)) r)).trans ?_
      rw [← e]
      rfl

/-- The printed index maps of the two statistics windows, decided over the 16 points: point `t` is on block `t / 8`. -/
theorem idx_facts : ∀ t : Fin cfg0.N, win0_1.index t (0 : Fin 3) = t.val / 8 ∧ win0_1.index t (1 : Fin 3) = 0
    ∧ win0_1.index t (2 : Fin 3) = 0 ∧ win0_2.index t (0 : Fin 3) = t.val / 8 ∧ win0_2.index t (1 : Fin 3) = 0
    ∧ win0_2.index t (2 : Fin 3) = 0 :=
  (by decide +kernel : ∀ t : Fin grid0.N, _)

/-- The maxima's array after the call: entry `h` is half `h`'s fold over its eight blocks. -/
abbrev maxima (c : Dev nD) : S2x1x1.Idx → EReal := fun i => runM (half V c (i 0).val) 7
/-- The sums' array after the call, likewise. -/
abbrev sums (c : Dev nD) : S2x1x1.Idx → EReal := fun i => runL (half V c (i 0).val) 7

theorem flushed_m (c : Dev nD) (t : Fin cfg0.N) (hf : (cfg0.win 1).flush t = true) :
    (dat0 V c).flushed 1 t = ((cfg0.win 1).blk t).view.read (Elt Ideal) (maxima V c) := by
  have h7 : t.val % 8 = 7 := (flush0_1 t).mp hf
  obtain ⟨e0, -⟩ := idx_facts t
  show (cfg0.win 1).cut (grid0.coords t) ((dat0 V c).after 1 t) = _
  rw [after0_1, outsAt_eq]
  funext j
  rw [View.read_apply]
  have hj : (j 0).val < 1 := (j 0).isLt
  have hv : ((((cfg0.win 1).blk t).view.emb j) 0).val = t.val / 8 := by
    show win0_1.index t (0 : Fin 3) * 1 + 1 * (j 0).val = t.val / 8
    omega
  show runM (half V c (t.val / 8)) (t.val % 8) = runM (half V c ((((cfg0.win 1).blk t).view.emb j) 0).val) 7
  rw [h7, hv]

theorem flushed_l (c : Dev nD) (t : Fin cfg0.N) (hf : (cfg0.win 2).flush t = true) :
    (dat0 V c).flushed 2 t = ((cfg0.win 2).blk t).view.read (Elt Ideal) (sums V c) := by
  have h7 : t.val % 8 = 7 := (flush0_2 t).mp hf
  obtain ⟨-, -, -, e0, -⟩ := idx_facts t
  show (cfg0.win 2).cut (grid0.coords t) ((dat0 V c).after 2 t) = _
  rw [after0_2, outsAt_eq]
  funext j
  rw [View.read_apply]
  have hj : (j 0).val < 1 := (j 0).isLt
  have hv : ((((cfg0.win 2).blk t).view.emb j) 0).val = t.val / 8 := by
    show win0_2.index t (0 : Fin 3) * 1 + 1 * (j 0).val = t.val / 8
    omega
  show runL (half V c (t.val / 8)) (t.val % 8) = runL (half V c ((((cfg0.win 2).blk t).view.emb j) 0).val) 7
  rw [h7, hv]

theorem mem_blk_m (t : Fin cfg0.N) (i : S2x1x1.Idx) :
    i ∈ ((cfg0.win 1).blk t).view.set ↔ ∀ a : Fin 3, win0_1.index t a * S1x1x1.size a ≤ (i a).val
      ∧ (i a).val < win0_1.index t a * S1x1x1.size a + S1x1x1.size a := by
  show i ∈ ((View.whole main_v1_0).slice (win0_1.rect t)).set ↔ _
  rw [View.set_slice_whole, Rect.mem_set_unit]
  exact Iff.rfl

theorem mem_blk_l (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v1_1).slice (win0_2.rect t)).set ↔ _
  rw [View.set_slice_whole, Rect.mem_set_unit]
  exact Iff.rfl

/-- Entry `h` of a statistics array is written back once, after half `h`'s last point `8 h + 7`. -/
theorem stats_m (c : Dev nD) : (dat0 V c).arrAt 1 cfg0.N = maxima V c :=
  (dat0 V c).arrAt_eq_of_cover 1 _ (flushed_m V c) fun i => by
    have hi0 : (i 0).val < 2 := (i 0).isLt
    have hi1 : (i 1).val < 1 := (i 1).isLt
    have hi2 : (i 2).val < 1 := (i 2).isLt
    have hN : cfg0.N = 16 := N_0
    obtain ⟨t, ht⟩ : ∃ t : Fin cfg0.N, t.val = 8 * (i 0).val + 7 := ⟨⟨8 * (i 0).val + 7, by rw [hN]; omega⟩, rfl⟩
    obtain ⟨e0, e1, e2, -⟩ := idx_facts t
    refine ⟨t, (flush0_1 t).mpr (by omega), ?_⟩
    rw [mem_blk_m]
    intro a
    match a with
    | ⟨0, _⟩ =>
      show win0_1.index t (0 : Fin 3) * 1 ≤ (i 0).val ∧ (i 0).val < win0_1.index t (0 : Fin 3) * 1 + 1
      rw [e0, ht]; omega
    | ⟨1, _⟩ =>
      show win0_1.index t (1 : Fin 3) * 1 ≤ (i 1).val ∧ (i 1).val < win0_1.index t (1 : Fin 3) * 1 + 1
      rw [e1]; omega
    | ⟨2, _⟩ =>
      show win0_1.index t (2 : Fin 3) * 1 ≤ (i 2).val ∧ (i 2).val < win0_1.index t (2 : Fin 3) * 1 + 1
      rw [e2]; omega

theorem stats_l (c : Dev nD) : (dat0 V c).arrAt 2 cfg0.N = sums V c :=
  (dat0 V c).arrAt_eq_of_cover 2 _ (flushed_l V c) fun i => by
    have hi0 : (i 0).val < 2 := (i 0).isLt
    have hi1 : (i 1).val < 1 := (i 1).isLt
    have hi2 : (i 2).val < 1 := (i 2).isLt
    have hN : cfg0.N = 16 := N_0
    obtain ⟨t, ht⟩ : ∃ t : Fin cfg0.N, t.val = 8 * (i 0).val + 7 := ⟨⟨8 * (i 0).val + 7, by rw [hN]; omega⟩, rfl⟩
    obtain ⟨-, -, -, e0, e1, e2⟩ := idx_facts t
    refine ⟨t, (flush0_2 t).mpr (by omega), ?_⟩
    rw [mem_blk_l]
    intro a
    match a with
    | ⟨0, _⟩ =>
      show win0_2.index t (0 : Fin 3) * 1 ≤ (i 0).val ∧ (i 0).val < win0_2.index t (0 : Fin 3) * 1 + 1
      rw [e0, ht]; omega
    | ⟨1, _⟩ =>
      show win0_2.index t (1 : Fin 3) * 1 ≤ (i 1).val ∧ (i 1).val < win0_2.index t (1 : Fin 3) * 1 + 1
      rw [e1]; omega
    | ⟨2, _⟩ =>
      show win0_2.index t (2 : Fin 3) * 1 ≤ (i 2).val ∧ (i 2).val < win0_2.index t (2 : Fin 3) * 1 + 1
      rw [e2]; omega

end Value

end Cert.KernelIdeal.Stats

end
-- ==== Proof.Normalize.lean ====
/-
  The second pass, on whole arrays.

  Every grid point of the second call reads one block of 8192 rows of the input, both statistics arrays whole, and
  writes the block of the same rows of the output: each entry minus the merged shift, exponentiated. The shift does
  not depend on the point, and the output's blocks tile the array, so the output array after the call is ONE function
  of the input array and the two statistics arrays as the call finds them, entry by entry.
-/
import proofs.«408562_j40991167873104_3_alg».proof.Proof.Gen.KernelIdeal.Frame
import proofs.«408562_j40991167873104_3_alg».proof.Proof.Payloads
import Idealize.ShloMosaic.Lib.Pipeline.Value

set_option maxRecDepth 16384

noncomputable section

namespace Cert.KernelIdeal.Normalize

open Idealize.ShloMosaic Idealize.ShloMosaic.TcCoe Idealize.SL.Sem
open Idealize.ShloMosaic.Pipeline (Dat)
open Cert.KernelIdeal Cert.KernelIdeal.Gen ValueIdx OnlineSoftmax

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The output array as a function of the input rows `X` and the statistics arrays `P` (maxima) and `Q` (sums), each
    holding one entry per half: every entry of `X` minus the merged shift, exponentiated. -/
abbrev result (X : S262144x128.Idx → EReal) (P Q : S2x1x1.Idx → EReal) : S262144x128.Idx → EReal :=
  fun i => Ideal.exp (X i - shift (P (ix3 0 0 0)) (P (ix3 1 0 0)) (Q (ix3 0 0 0)) (Q (ix3 1 0 0)))

/-- The printed index maps, decided over the 32 points: the input's and the output's block index is the point on the row
    axis and zero on the lane axis; the statistics windows stay at block zero. -/
theorem idx_facts : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0 :=
  (by decide +kernel : ∀ t : Fin grid1.N, _)

/-- The input block at point `t`, entry `j`: the input array under the output block's entry `j`. -/
theorem read_x (c : Dev nD) (t : Fin cfg1.N) (j : S8192x128.Idx) :
    iblk1 V c 0 t j = V c main_v0 (((cfg1.win 3).blk t).view.emb j) := by
  obtain ⟨e0, e1, e2, e3, -⟩ := idx_facts t
  unfold iblk1
  rw [View.read_apply]
  show V c main_v0 (((cfg1.win 0).blk t).view.emb j) = V c main_v0 (((cfg1.win 3).blk t).view.emb j)
  refine congrArg _ (funext fun a => Fin.ext ?_)
  match a with
  | ⟨0, _⟩ => show win1_0.index t (0 : Fin 2) * 8192 + 1 * (j 0).val = win1_3.index t (0 : Fin 2) * 8192 + 1 * (j 0).val; omega
  | ⟨1, _⟩ => show win1_0.index t (1 : Fin 2) * 128 + 1 * (j 1).val = win1_3.index t (1 : Fin 2) * 128 + 1 * (j 1).val; omega

/-- The maxima's window is the whole array at every point. -/
theorem read_p (c : Dev nD) (t : Fin cfg1.N) (y : S2x1x1.Idx) : iblk1 V c 1 t y = V c main_v1_0 y := by
  obtain ⟨-, -, -, -, e4, e5, e6, -⟩ := idx_facts t
  unfold iblk1
  rw [View.read_apply]
  show V c main_v1_0 (((cfg1.win 1).blk t).view.emb y) = V c main_v1_0 y
  refine congrArg _ (funext fun a => Fin.ext ?_)
  match a with
  | ⟨0, _⟩ => show win1_1.index t (0 : Fin 3) * 2 + 1 * (y 0).val = (y 0).val; omega
  | ⟨1, _⟩ => show win1_1.index t (1 : Fin 3) * 1 + 1 * (y 1).val = (y 1).val; omega
  | ⟨2, _⟩ => show win1_1.index t (2 : Fin 3) * 1 + 1 * (y 2).val = (y 2).val; omega

/-- The sums' window is the whole array at every point. -/
theorem read_q (c : Dev nD) (t : Fin cfg1.N) (y : S2x1x1.Idx) : iblk1 V c 2 t y = V c main_v1_1 y := by
  obtain ⟨-, -, -, -, -, -, -, e7, e8, e9⟩ := idx_facts t
  unfold iblk1
  rw [View.read_apply]
  show V c main_v1_1 (((cfg1.win 2).blk t).view.emb y) = V c main_v1_1 y
  refine congrArg _ (funext fun a => Fin.ext ?_)
  match a with
  | ⟨0, _⟩ => show win1_2.index t (0 : Fin 3) * 2 + 1 * (y 0).val = (y 0).val; omega
  | ⟨1, _⟩ => show win1_2.index t (1 : Fin 3) * 1 + 1 * (y 1).val = (y 1).val; omega
  | ⟨2, _⟩ => show win1_2.index t (2 : Fin 3) * 1 + 1 * (y 2).val = (y 2).val; omega

/-- What point `t` writes back is block `t` of `result` of the arrays as the call finds them. -/
theorem flushed_eq (c : Dev nD) (t : Fin cfg1.N) :
    (dat1 V c).flushed 3 t = ((cfg1.win 3).blk t).view.read (Elt Ideal)
      (result (V c main_v0) (V c main_v1_0) (V c main_v1_1)) := by
  show (cfg1.win 3).cut (grid1.coords t) ((dat1 V c).after 3 t) = _
  rw [after1_3]
  unfold out1_3
  rw [View.canon_unit_zero hz2]
  simp only [View.ld_unit_zero (S := S8192x128) hz2, View.ld_unit_zero (S := S2x1x1) hz3]
  funext j
  rw [View.read_apply]
  show k1_pay1 (F := Ideal) (iblk1 V c 1 t) (iblk1 V c 2 t) (iblk1 V c 0 t) j
    = result (V c main_v0) (V c main_v1_0) (V c main_v1_1) (((cfg1.win 3).blk t).view.emb j)
  refine (Payloads.pay_norm_apply (iblk1 V c 1 t) (iblk1 V c 2 t) (iblk1 V c 0 t) j).trans ?_
  rw [read_x V c t j, read_p V c t (ix3 0 0 0), read_p V c t (ix3 1 0 0), read_q V c t (ix3 0 0 0), read_q V c t (ix3 1 0 0)]

/-- An entry of the output array lies in point `t`'s block iff each coordinate is in the block's range on its axis. -/
theorem mem_blk (t : Fin cfg1.N) (i : S262144x128.Idx) :
    i ∈ ((cfg1.win 3).blk t).view.set ↔ ∀ a : Fin 2, win1_3.index t a * S8192x128.size a ≤ (i a).val
      ∧ (i a).val < win1_3.index t a * S8192x128.size a + S8192x128.size a := by
  show i ∈ ((View.whole main_v2).slice (win1_3.rect t)).set ↔ _
  rw [View.set_slice_whole, Rect.mem_set_unit]
  exact Iff.rfl

/-- The output array after the call: row `r` is in the block of point `r / 8192`, so the 32 blocks cover it. -/
theorem final (c : Dev nD) :
    (dat1 V c).arrAt 3 cfg1.N = result (V c main_v0) (V c main_v1_0) (V c main_v1_1) :=
  (dat1 V c).arrAt_eq_of_cover 3 _ (fun t _ => flushed_eq V c t) fun i => by
    have hi0 : (i 0).val < 262144 := (i 0).isLt
    have hi1 : (i 1).val < 128 := (i 1).isLt
    have hN : cfg1.N = 32 := N_1
    obtain ⟨t, ht⟩ : ∃ t : Fin cfg1.N, t.val = (i 0).val / 8192 := ⟨⟨(i 0).val / 8192, by rw [hN]; omega⟩, rfl⟩
    obtain ⟨-, -, e2, e3, -⟩ := idx_facts t
    refine ⟨t, flush1_3 t, ?_⟩
    rw [mem_blk]
    intro a
    match a with
    | ⟨0, _⟩ =>
      show win1_3.index t (0 : Fin 2) * 8192 ≤ (i 0).val ∧ (i 0).val < win1_3.index t (0 : Fin 2) * 8192 + 8192
      rw [e2, ht]; omega
    | ⟨1, _⟩ =>
      show win1_3.index t (1 : Fin 2) * 128 ≤ (i 1).val ∧ (i 1).val < win1_3.index t (1 : Fin 2) * 128 + 128
      rw [e3]; omega

end Cert.KernelIdeal.Normalize

end
-- ==== Proof.Reindex.lean ====
/-
  Sixteen blocks of 16384 rows of 128 lanes tile a flat vector of 33554432 entries: entry `(r, l)` of block `n` sits at
  position `(16384 n + r) * 128 + l`. The map is a bijection, so a sum over the flat vector is the sum over the blocks
  of the sums over each block, and the sixteen blocks are two halves of eight.
-/
import Idealize.ShloMosaic.Lib.ValueIdx
import Mathlib.Algebra.BigOperators.Fin
import Mathlib.Algebra.BigOperators.Group.Finset.Basic

noncomputable section

namespace SoftmaxIndex

open Idealize.ShloMosaic ValueIdx

/-- An index of the flat vector. -/
abbrev I1 : Type := (⟨1, ![33554432]⟩ : Shape).Idx
/-- An index inside one block. -/
abbrev IB : Type := (⟨2, ![16384, 128]⟩ : Shape).Idx

theorem flat_lt (n : Fin 16) (y : IB) : (16384 * n.val + (y 0).val) * 128 + (y 1).val < 33554432 := by
  have h0 := idx2_lt0 y; have h1 := idx2_lt1 y; have := n.isLt; omega

/-- Where entry `y` of block `n` sits in the flat vector. -/
def flat (n : Fin 16) (y : IB) : I1 := ix1 ⟨(16384 * n.val + (y 0).val) * 128 + (y 1).val, flat_lt n y⟩

theorem flat_val (n : Fin 16) (y : IB) : (flat n y 0).val = (16384 * n.val + (y 0).val) * 128 + (y 1).val := rfl

theorem flat_bijective : Function.Bijective (fun p : Fin 16 × IB => flat p.1 p.2) := by
  constructor
  · rintro ⟨n, y⟩ ⟨n', y'⟩ h
    have hv : (flat n y 0).val = (flat n' y' 0).val := congrArg (fun k : I1 => (k 0).val) h
    rw [flat_val, flat_val] at hv
    have h0 := idx2_lt0 y; have h1 := idx2_lt1 y; have h0' := idx2_lt0 y'; have h1' := idx2_lt1 y'
    have hn := n.isLt; have hn' := n'.isLt
    have e1 : n.val = n'.val := by omega
    have e2 : (y 0).val = (y' 0).val := by omega
    have e3 : (y 1).val = (y' 1).val := by omega
    refine Prod.ext (Fin.ext e1) (funext fun a => ?_)
    match a with
    | ⟨0, _⟩ => exact Fin.ext e2
    | ⟨1, _⟩ => exact Fin.ext e3
  · intro k
    have hk : (k 0).val < 33554432 := (k 0).isLt
    refine ⟨(⟨(k 0).val / 2097152, by omega⟩, ix2 ⟨(k 0).val % 2097152 / 128, by omega⟩ ⟨(k 0).val % 128, by omega⟩), ?_⟩
    funext a
    match a with
    | ⟨0, _⟩ =>
      apply Fin.ext
      show (16384 * ((k 0).val / 2097152) + (k 0).val % 2097152 / 128) * 128 + (k 0).val % 128 = (k 0).val
      omega

/-- Every position is some block's entry. -/
theorem flat_surj (k : I1) : ∃ (n : Fin 16) (y : IB), flat n y = k := by
  obtain ⟨⟨n, y⟩, h⟩ := flat_bijective.2 k
  exact ⟨n, y, h⟩

/-- A sum over the flat vector, block by block. -/
theorem sum_flat {M : Type} [AddCommMonoid M] (f : I1 → M) : ∑ k : I1, f k = ∑ n : Fin 16, ∑ y : IB, f (flat n y) := by
  rw [← Fintype.sum_prod_type' (fun n y => f (flat n y))]
  exact (flat_bijective.sum_comp f).symm

/-- Sixteen blocks are two halves of eight: block `8 c + j` is block `j` of half `c`. -/
theorem sum_halves {M : Type} [AddCommMonoid M] (G : ℕ → M) :
    ∑ n : Fin 16, G n.val = ∑ c : Fin 2, ∑ j ∈ Finset.range 8, G (8 * c.val + j) := by
  rw [Fin.sum_univ_eq_sum_range G 16, Fin.sum_univ_two, show (16 : ℕ) = 8 + 8 from rfl, Finset.sum_range_add]
  simp

end SoftmaxIndex

end
-- ==== Proof.KernelValue.lean ====
/-
  The kernel's result, entry by entry.

  The program reshapes the flat argument to rows, runs the first pass (leaving the two statistics arrays), runs the second
  pass on the rows and the statistics, and reshapes the rows back. Reading each boundary's contents in turn: the result
  at entry `k` is the argument's entry `k` minus the merged shift of the two halves' online folds, exponentiated; and
  the blocks the folds run over are the sixteen consecutive stretches of the argument.
-/
import proofs.«408562_j40991167873104_3_alg».proof.Proof.KernelRun
import proofs.«408562_j40991167873104_3_alg».proof.Proof.Stats
import proofs.«408562_j40991167873104_3_alg».proof.Proof.Normalize
import proofs.«408562_j40991167873104_3_alg».proof.Proof.Reindex
import Idealize.ShloMosaic.Lib.StableHlo.Run

set_option maxRecDepth 16384

noncomputable section

namespace Cert.KernelIdeal.Value

open Idealize.ShloMosaic Idealize.ShloMosaic.TcCoe Idealize.SL.Sem Idealize.ShloMosaic.StableHlo
open Idealize.ShloMosaic.Pipeline (Dat)
open Cert.KernelIdeal Cert.KernelIdeal.Gen ValueIdx OnlineSoftmax SoftmaxIndex

variable (m : (ℓ : Loc nD τ sig) → Buf (Elt Ideal) ℓ) (ρ : Dev nD → PrngReg)

/-- The flat argument. -/
abbrev arg (c : Dev nD) : S33554432.Idx → EReal := m ((c.tc : Thread nD τ).loc main_arg0)

/-- The argument as 262144 rows of 128 lanes. -/
def rows (c : Dev nD) : S262144x128.Idx → EReal :=
  shapeCast S262144x128 (arg m c) shapeCasts_S33554432_S262144x128

/-- The first call finds the rows in its input array. -/
theorem V1_rows (c : Dev nD) : V1 m ρ c main_v0 = rows m c := by
  show StableHlo.after hostOps0 (W0 m ρ c) (Proc.devRef .tc main_v0) = _
  after_results
  rfl

/-- The first call leaves its input array as found, so the second call finds the rows there too. -/
theorem V2_rows (c : Dev nD) : V2 m ρ c main_v0 = rows m c :=
  (hF0 m ρ c 0).symm.trans (((dat0 (V1 m ρ) c).arrAt_in 0 rfl cfg0.N).trans ((A_eq0 (V1 m ρ) c 0).trans (V1_rows m ρ c)))

/-- The second call finds the two halves' maxima in its second input, -/
theorem V2_maxima (c : Dev nD) : V2 m ρ c main_v1_0 = Stats.maxima (V1 m ρ) c :=
  (hF0 m ρ c 1).symm.trans (Stats.stats_m (V1 m ρ) c)

/-- and their sums in its third. -/
theorem V2_sums (c : Dev nD) : V2 m ρ c main_v1_1 = Stats.sums (V1 m ρ) c :=
  (hF0 m ρ c 2).symm.trans (Stats.stats_l (V1 m ρ) c)

/-- The second call's output array: every entry of the rows minus the merged shift, exponentiated. -/
theorem out_rows (c : Dev nD) :
    V3 m ρ c main_v2 = Normalize.result (rows m c) (Stats.maxima (V1 m ρ) c) (Stats.sums (V1 m ρ) c) := by
  refine (hF1 m ρ c 3).symm.trans ((Normalize.final (V2 m ρ) c).trans ?_)
  rw [V2_rows, V2_maxima, V2_sums]

/-- The result array: the output rows, flattened. -/
theorem W4_result (c : Dev nD) :
    W4 m ρ c (Proc.devRef .tc main_v3) = shapeCast S33554432 (V3 m ρ c main_v2) shapeCasts_S262144x128_S33554432 := by
  show StableHlo.after hostOps2 (W3 m ρ c) (Proc.devRef .tc main_v3) = _
  after_results
  rfl

/-- Position `k` of the flat vector as a row and a lane. -/
def rowOf (k : S33554432.Idx) : S262144x128.Idx :=
  ix2 ⟨(k 0).val / 128, by have h : (k 0).val < 33554432 := (k 0).isLt; omega⟩
    ⟨(k 0).val % 128, Nat.mod_lt _ (by decide)⟩

/-- The rows at `rowOf k` hold the argument's entry `k`. -/
theorem rows_rowOf (c : Dev nD) (k : S33554432.Idx) : rows m c (rowOf k) = arg m c k := by
  unfold rows
  refine shapeCast_apply _ _ (rowOf k) k ?_
  rw [Shape.rowMajor_val_one, Shape.rowMajor_val_two]
  show (k 0).val = (k 0).val / 128 * 128 + (k 0).val % 128
  omega

/-- Half `h`'s blocks as the first call meets them. -/
abbrev halfBlocks (c : Dev nD) (h : ℕ) : ℕ → S16384x128.Idx → EReal := Stats.half (V1 m ρ) c h

/-- THE KERNEL'S RESULT at entry `k`: the argument's entry minus the merged shift of the two halves' folds, exponentiated. -/
theorem result_apply (c : Dev nD) (k : S33554432.Idx) :
    W4 m ρ c (Proc.devRef .tc main_v3) k
      = Ideal.exp (arg m c k - shift (runM (halfBlocks m ρ c 0) 7) (runM (halfBlocks m ρ c 1) 7)
          (runL (halfBlocks m ρ c 0) 7) (runL (halfBlocks m ρ c 1) 7)) := by
  rw [W4_result]
  refine (shapeCast_apply _ _ k (rowOf k) ?_).trans ?_
  · rw [Shape.rowMajor_val_one, Shape.rowMajor_val_two]
    show (k 0).val / 128 * 128 + (k 0).val % 128 = (k 0).val
    omega
  rw [out_rows]
  show Ideal.exp (rows m c (rowOf k) - _) = _
  rw [rows_rowOf]
  rfl

/-- The first call's input window, decided over the 16 points: point `t` reads block `t` of the rows. -/
theorem idx_facts : ∀ t : Fin cfg0.N, win0_0.index t (0 : Fin 2) = t.val ∧ win0_0.index t (1 : Fin 2) = 0 :=
  (by decide +kernel : ∀ t : Fin grid0.N, _)

/-- The block the first call reads at point `n` is the `n`-th stretch of the argument. -/
theorem pblk_eq (c : Dev nD) (n : Fin 16) (y : IB) : Stats.pblk (V1 m ρ) c n.val y = arg m c (flat n y) := by
  have hN : cfg0.N = 16 := N_0
  have hn : n.val < cfg0.N := by rw [hN]; exact n.isLt
  rw [Stats.pblk_of_lt _ c n.val hn]
  obtain ⟨e0, e1⟩ := idx_facts ⟨n.val, hn⟩
  show iblk0 (V1 m ρ) c 0 ⟨n.val, hn⟩ y = _
  unfold iblk0
  rw [View.read_apply]
  refine (congrFun (V1_rows m ρ c) _).trans ?_
  unfold rows
  refine shapeCast_apply _ _ _ (flat n y) ?_
  rw [Shape.rowMajor_val_one, Shape.rowMajor_val_two]
  show (flat n y 0).val = (win0_0.index ⟨n.val, hn⟩ (0 : Fin 2) * 16384 + 1 * (y 0).val) * 128
    + (win0_0.index ⟨n.val, hn⟩ (1 : Fin 2) * 128 + 1 * (y 1).val)
  rw [flat_val, e0, e1]
  show (16384 * n.val + (y 0).val) * 128 + (y 1).val = (n.val * 16384 + 1 * (y 0).val) * 128 + (0 * 128 + 1 * (y 1).val)
  omega

end Cert.KernelIdeal.Value

end
-- ==== Proof.RefValue.lean ====
/-
  The reference, entry by entry.

  `jax.nn.softmax` on the flat vector: the largest entry `M` (a maximum taken from `-∞`), every entry minus `M`
  exponentiated, and each of those divided by their sum (taken from `0`).
-/
import proofs.«408562_j40991167873104_3_alg».proof.Proof.Gen.ReferenceIdeal.Run
import proofs.«408562_j40991167873104_3_alg».proof.Proof.Gen.ReferenceIdeal.Read
import Idealize.ShloMosaic.Lib.ValueIdx
import Idealize.ShloMosaic.PureOps.Ideal.Laws

noncomputable section

namespace Cert.ReferenceIdeal.RefValue

open Idealize.ShloMosaic Cert.ReferenceIdeal Cert.ReferenceIdeal.Gen Cert.ReferenceIdeal.Read ValueIdx

/-- The reference's maximum: the larger of `-∞` and the maximum of all entries taken from `-∞`. -/
def refMax (x : S33554432.Idx → EReal) : EReal := val_main_v1 (F := Ideal) x ix0

/-- The reference's result at entry `i`. -/
theorem result_apply (x : S33554432.Idx → EReal) (i : S33554432.Idx) :
    val_main_v9 (F := Ideal) x i
      = Ideal.div (Ideal.exp (x i - refMax x)) (0 + ∑ j : S33554432.Idx, Ideal.exp (x j - refMax x)) := by
  have e5 : ∀ j : S33554432.Idx, val_main_v5 (F := Ideal) x j = Ideal.exp (x j - refMax x) := fun j => by
    rw [val_main_v5_apply, val_main_v4_apply, val_main_v3_apply, val_main_v2_apply, Ideal.hostUnary_exp_def, Ideal.subf_def]
    rfl
  rw [val_main_v9_apply, val_main_v8_apply, val_main_v7_apply, val_main_v6_apply, Ideal.hostDivf_def, e5]
  simp only [e5, val_main_cst_1_apply, Ideal.ofBits_def, Ideal.ofBits_zero_f32]

/-- The reference's maximum is the least upper bound of the entries. -/
theorem refMax_le_iff (x : S33554432.Idx → EReal) (z : EReal) : refMax x ≤ z ↔ ∀ k, x k ≤ z := by
  have hb : Ideal.ofBits .f32 0xFF800000#32 = (⊥ : EReal) := by simp [Ideal.ofBits, Ideal.ieee]
  unfold refMax
  rw [val_main_v1_apply, val_main_cst_0_apply]
  unfold val_main_v0
  show max (Ideal.ofBits .f32 0xFF800000#32)
    (Host.reduce (max : EReal → EReal → EReal) x (val_main_cst (F := Ideal)) reducesTo_S33554432_S_d0 h_S_ ix0) ≤ z ↔ _
  rw [Host.reduce_eq_fold, max_le_iff, Finset.fold_max_le, val_main_cst_apply]
  simp only [Ideal.ofBits_def, hb, bot_le, true_and, Finset.mem_filter, Finset.mem_univ]
  constructor
  · intro h k; exact h k (funext fun a => a.elim0)
  · intro h k _; exact h k

end Cert.ReferenceIdeal.RefValue

end
-- ==== Proof.OnlineMath.lean ====
import proofs.«408562_j40991167873104_3_alg».proof.Proof.OnlineDefs
import Idealize.ShloMosaic.PureOps.Ideal.Laws
import Mathlib.Data.EReal.Operations
import Mathlib.Data.Fintype.Lattice
import Mathlib.Analysis.SpecialFunctions.Log.Basic
import Mathlib.Algebra.Order.BigOperators.Group.Finset
import Mathlib.Algebra.BigOperators.Fin

noncomputable section

namespace OnlineSoftmax

open Idealize.ShloMosaic

section Lemmas

variable {ι : Type} [Fintype ι]

/-- A finite sum of real numbers, read in the extended reals, is the sum of the readings. -/
theorem coe_sum {α : Type} (s : Finset α) (f : α → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- Reading a real number in the extended reals commutes with taking the larger of two. -/
theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-- On real arguments the extended exponential of a difference is the real one. -/
theorem exp_coe_sub (x M : ℝ) :
    Ideal.exp ((x : EReal) - (M : EReal)) = ((Real.exp (x - M) : ℝ) : EReal) := by
  rw [← EReal.coe_sub, Ideal.exp_coe]

/-- One step's maximum is below a bound exactly when the old maximum and every entry of the block are. -/
theorem stepM_le_iff (m : EReal) (f : ι → EReal) (z : EReal) :
    stepM m f ≤ z ↔ m ≤ z ∧ ∀ y, f y ≤ z := by
  unfold stepM
  rw [max_le_iff, iSup_le_iff]

/-- The running maximum is the least upper bound of every entry met so far. -/
theorem runM_le_iff (g : ℕ → ι → EReal) (n : ℕ) (z : EReal) :
    runM g n ≤ z ↔ ∀ j, j ≤ n → ∀ y, g j y ≤ z := by
  induction n with
  | zero =>
    show stepM ⊥ (g 0) ≤ z ↔ _
    rw [stepM_le_iff]
    constructor
    · rintro ⟨_, h⟩ j hj y
      obtain rfl : j = 0 := Nat.le_zero.mp hj
      exact h y
    · intro h
      exact ⟨bot_le, h 0 le_rfl⟩
  | succ n ih =>
    show stepM (runM g n) (g (n + 1)) ≤ z ↔ _
    rw [stepM_le_iff, ih]
    constructor
    · rintro ⟨h1, h2⟩ j hj y
      rcases Nat.lt_or_eq_of_le hj with hlt | rfl
      · exact h1 j (Nat.lt_succ_iff.mp hlt) y
      · exact h2 y
    · intro h
      exact ⟨fun j hj y => h j (Nat.le_succ_of_le hj) y, h (n + 1) le_rfl⟩

/-- The supremum of finitely many real numbers over a nonempty index is one of them, hence real. -/
theorem iSup_coe_real [Nonempty ι] (f : ι → ℝ) : ∃ r : ℝ, (⨆ y, (f y : EReal)) = (r : EReal) := by
  obtain ⟨y0, hy0⟩ := Finite.exists_max f
  refine ⟨f y0, le_antisymm (iSup_le fun y => ?_) (le_iSup (fun y => (f y : EReal)) y0)⟩
  exact EReal.coe_le_coe_iff.mpr (hy0 y)

/-- Over real blocks the running maximum is a real number. -/
theorem runM_real [Nonempty ι] (g : ℕ → ι → EReal) (b : ℕ → ι → ℝ) (n : ℕ)
    (hg : ∀ j, j ≤ n → ∀ y, g j y = (b j y : EReal)) : ∃ m : ℝ, runM g n = (m : EReal) := by
  induction n with
  | zero =>
    obtain ⟨r, hr⟩ := iSup_coe_real (b 0)
    refine ⟨r, ?_⟩
    have h : (⨆ y, g 0 y) = (r : EReal) := by
      rw [← hr]
      exact iSup_congr (hg 0 le_rfl)
    show max ⊥ (⨆ y, g 0 y) = _
    rw [max_bot_left, h]
  | succ n ih =>
    obtain ⟨m, hm⟩ := ih (fun j hj y => hg j (Nat.le_succ_of_le hj) y)
    obtain ⟨r, hr⟩ := iSup_coe_real (b (n + 1))
    refine ⟨max m r, ?_⟩
    have h : (⨆ y, g (n + 1) y) = (r : EReal) := by
      rw [← hr]
      exact iSup_congr (hg (n + 1) le_rfl)
    show max (runM g n) (⨆ y, g (n + 1) y) = _
    rw [hm, h, coe_max]

/-- Moving the reference point of a sum of exponentials from one real to another multiplies it by the
    exponential of their difference. -/
theorem rescale {α : Type} (s : Finset α) (b : α → ι → ℝ) (m M : ℝ) :
    Real.exp (m - M) * ∑ j ∈ s, ∑ y, Real.exp (b j y - m) = ∑ j ∈ s, ∑ y, Real.exp (b j y - M) := by
  rw [Finset.mul_sum]
  refine Finset.sum_congr rfl fun j _ => ?_
  rw [Finset.mul_sum]
  refine Finset.sum_congr rfl fun y _ => ?_
  rw [← Real.exp_add]
  congr 1
  ring

/-- The same, with the factor on the right. -/
theorem rescale' {α : Type} (s : Finset α) (b : α → ι → ℝ) (m M : ℝ) :
    (∑ j ∈ s, ∑ y, Real.exp (b j y - m)) * Real.exp (m - M) = ∑ j ∈ s, ∑ y, Real.exp (b j y - M) := by
  rw [mul_comm]
  exact rescale s b m M

/-- One real block's terms at a real reference point sum to a real number. -/
theorem block_sum (f : ι → EReal) (b : ι → ℝ) (hf : ∀ y, f y = (b y : EReal)) (M : ℝ) :
    ∑ y, Ideal.exp (f y - (M : EReal)) = ((∑ y, Real.exp (b y - M) : ℝ) : EReal) := by
  rw [coe_sum]
  refine Finset.sum_congr rfl fun y _ => ?_
  rw [hf y, exp_coe_sub]

/-- Several real blocks' terms at a real reference point sum to a real number. -/
theorem blocks_sum (g : ℕ → ι → EReal) (b : ℕ → ι → ℝ) (n : ℕ)
    (hg : ∀ j, j ≤ n → ∀ y, g j y = (b j y : EReal)) (M : ℝ) :
    ∑ j ∈ Finset.range (n + 1), ∑ y, Ideal.exp (g j y - (M : EReal))
      = ((∑ j ∈ Finset.range (n + 1), ∑ y, Real.exp (b j y - M) : ℝ) : EReal) := by
  rw [coe_sum]
  refine Finset.sum_congr rfl fun j hj => ?_
  exact block_sum (g j) (b j) (hg j (Nat.lt_succ_iff.mp (Finset.mem_range.mp hj))) M

/-- Over real blocks the running sum is the sum, over every entry met so far, of the exponential of the entry
    minus the running maximum. -/
theorem runL_eq [Nonempty ι] (g : ℕ → ι → EReal) (b : ℕ → ι → ℝ) (n : ℕ)
    (hg : ∀ j, j ≤ n → ∀ y, g j y = (b j y : EReal)) (M : ℝ) (hM : runM g n = (M : EReal)) :
    runL g n = ((∑ j ∈ Finset.range (n + 1), ∑ y, Real.exp (b j y - M) : ℝ) : EReal) := by
  induction n generalizing M with
  | zero =>
    have h0 : stepM ⊥ (g 0) = (M : EReal) := hM
    show (if (⊥ : EReal) = ⊥ then 0 else Ideal.exp (⊥ - stepM ⊥ (g 0))) * 0
        + ∑ y, Ideal.exp (g 0 y - stepM ⊥ (g 0)) = _
    rw [h0, mul_zero, zero_add, block_sum (g 0) (b 0) (hg 0 le_rfl) M, Finset.sum_range_one]
  | succ n ih =>
    have hg' : ∀ j, j ≤ n → ∀ y, g j y = (b j y : EReal) :=
      fun j hj y => hg j (Nat.le_succ_of_le hj) y
    obtain ⟨m, hm⟩ := runM_real g b n hg'
    have hl := ih hg' m hm
    have hM' : stepM (runM g n) (g (n + 1)) = (M : EReal) := hM
    show (if runM g n = ⊥ then 0 else Ideal.exp (runM g n - stepM (runM g n) (g (n + 1)))) * runL g n
        + ∑ y, Ideal.exp (g (n + 1) y - stepM (runM g n) (g (n + 1))) = _
    rw [hM', hl, hm, if_neg (EReal.coe_ne_bot m), exp_coe_sub,
      block_sum (g (n + 1)) (b (n + 1)) (hg (n + 1) le_rfl) M, ← EReal.coe_mul, ← EReal.coe_add, rescale,
      Finset.sum_range_succ (fun j => ∑ y, Real.exp (b j y - M)) (n + 1)]

/-- A sum of exponentials over a nonempty family of nonempty blocks is positive. -/
theorem sum_exp_pos [Nonempty ι] (b : ℕ → ι → ℝ) (n : ℕ) (M : ℝ) :
    0 < ∑ j ∈ Finset.range (n + 1), ∑ y, Real.exp (b j y - M) := by
  refine Finset.sum_pos (fun j _ => ?_) Finset.nonempty_range_add_one
  exact Finset.sum_pos (fun y _ => Real.exp_pos _) Finset.univ_nonempty

end Lemmas

/-- The one-pass statistics give the two-pass softmax. Sixteen blocks of real numbers, eight to each of two halves
    (`B c j`, `j < 8`), are folded half by half and the halves merged; then `exp (a - shift)` is `exp (a - M)` divided by
    the sum of `exp (entry - M)` over all entries, `M` being the supremum of all entries. -/
theorem online_softmax_eq {ι : Type} [Fintype ι] [Nonempty ι] (B : Fin 2 → ℕ → ι → EReal)
    (hreal : ∀ c j, j < 8 → ∀ y, ∃ r : ℝ, B c j y = (r : EReal))
    (Mall : EReal) (hM : ∀ z : EReal, Mall ≤ z ↔ ∀ c j, j < 8 → ∀ y, B c j y ≤ z)
    (a : ℝ) :
    Ideal.exp ((a : EReal) - shift (runM (B 0) 7) (runM (B 1) 7) (runL (B 0) 7) (runL (B 1) 7))
      = Ideal.div (Ideal.exp ((a : EReal) - Mall))
          (0 + ∑ c : Fin 2, ∑ j ∈ Finset.range 8, ∑ y, Ideal.exp (B c j y - Mall)) := by
  -- every entry of the sixteen blocks is the reading of a real number
  have hB : ∀ c j, j ≤ 7 → ∀ y, B c j y = (((B c j y).toReal : ℝ) : EReal) := by
    intro c j hj y
    obtain ⟨r, hr⟩ := hreal c j (Nat.lt_succ_of_le hj) y
    rw [hr, EReal.toReal_coe]
  -- each half's running maximum is real, and its running sum is the sum of exponentials at that maximum
  obtain ⟨m0, hm0⟩ := runM_real (B 0) (fun j y => (B 0 j y).toReal) 7 (hB 0)
  obtain ⟨m1, hm1⟩ := runM_real (B 1) (fun j y => (B 1 j y).toReal) 7 (hB 1)
  have hl0 := runL_eq (B 0) (fun j y => (B 0 j y).toReal) 7 (hB 0) m0 hm0
  have hl1 := runL_eq (B 1) (fun j y => (B 1 j y).toReal) 7 (hB 1) m1 hm1
  -- the supremum of all entries is the larger of the two halves' maxima
  have hMall : Mall = ((max m0 m1 : ℝ) : EReal) := by
    rw [coe_max, ← hm0, ← hm1]
    refine eq_of_forall_ge_iff fun z => ?_
    rw [hM, max_le_iff, runM_le_iff, runM_le_iff]
    constructor
    · intro h
      exact ⟨fun j hj y => h 0 j (Nat.lt_succ_of_le hj) y, fun j hj y => h 1 j (Nat.lt_succ_of_le hj) y⟩
    · rintro ⟨h0, h1⟩
      refine (Fin.forall_fin_two (p := fun c => ∀ j, j < 8 → ∀ y, B c j y ≤ z)).mpr ⟨?_, ?_⟩
      · exact fun j hj y => h0 j (Nat.lt_succ_iff.mp hj) y
      · exact fun j hj y => h1 j (Nat.lt_succ_iff.mp hj) y
  -- the sum of exponentials of all entries at the common maximum, half by half; it is positive
  have hpos0 := sum_exp_pos (fun j y => (B 0 j y).toReal) 7 (max m0 m1)
  have hpos1 := sum_exp_pos (fun j y => (B 1 j y).toReal) 7 (max m0 m1)
  have hpos := add_pos hpos0 hpos1
  -- the merged sum is that number: each half's sum is moved from its own maximum to the common one
  have hmerge : mergeL (m0 : EReal) (m1 : EReal)
        ((∑ j ∈ Finset.range (7 + 1), ∑ y, Real.exp ((B 0 j y).toReal - m0) : ℝ) : EReal)
        ((∑ j ∈ Finset.range (7 + 1), ∑ y, Real.exp ((B 1 j y).toReal - m1) : ℝ) : EReal)
      = (((∑ j ∈ Finset.range (7 + 1), ∑ y, Real.exp ((B 0 j y).toReal - max m0 m1))
          + ∑ j ∈ Finset.range (7 + 1), ∑ y, Real.exp ((B 1 j y).toReal - max m0 m1) : ℝ) : EReal) := by
    unfold mergeL
    rw [← coe_max, exp_coe_sub, exp_coe_sub, ← EReal.coe_mul, ← EReal.coe_mul, ← EReal.coe_add,
      rescale' (Finset.range (7 + 1)) (fun j y => (B 0 j y).toReal),
      rescale' (Finset.range (7 + 1)) (fun j y => (B 1 j y).toReal)]
  -- the right side's sum over all entries is the same number
  have hrhs : ∑ c : Fin 2, ∑ j ∈ Finset.range 8, ∑ y, Ideal.exp (B c j y - ((max m0 m1 : ℝ) : EReal))
      = (((∑ j ∈ Finset.range (7 + 1), ∑ y, Real.exp ((B 0 j y).toReal - max m0 m1))
          + ∑ j ∈ Finset.range (7 + 1), ∑ y, Real.exp ((B 1 j y).toReal - max m0 m1) : ℝ) : EReal) := by
    rw [Fin.sum_univ_two, EReal.coe_add]
    exact congrArg₂ (· + ·) (blocks_sum (B 0) (fun j y => (B 0 j y).toReal) 7 (hB 0) (max m0 m1))
      (blocks_sum (B 1) (fun j y => (B 1 j y).toReal) 7 (hB 1) (max m0 m1))
  unfold shift
  rw [hm0, hm1, hl0, hl1, hmerge, hMall, hrhs, ← coe_max, zero_add, Ideal.div_coe (ne_of_gt hpos),
    Ideal.log_coe, if_neg (not_le.mpr hpos), ← EReal.coe_add, exp_coe_sub, exp_coe_sub, ← EReal.coe_mul]
  -- what is left is an identity of real exponentials
  congr 1
  rw [show a - (max m0 m1 + Real.log _) = (a - max m0 m1) - Real.log _ from by ring, Real.exp_sub,
    Real.exp_log hpos, div_eq_mul_one_div]

end OnlineSoftmax

end
-- ==== Proof.LibFinite.lean ====
/-
  "Every entry's absolute value is below `+∞`" means every entry is a real number.

  A general reading of the finiteness test `all (|x| < +∞)` over an array of extended reals: the and-reduction of the
  entrywise comparison is the all-ones word exactly when each entry is neither `+∞` nor `-∞`.
-/
import Idealize.ShloMosaic.PureOps.Ideal
import Idealize.ShloMosaic.PureOps.Ideal.Laws
import Idealize.ShloMosaic.Lib.ReduceAll

noncomputable section

namespace FiniteTest

open Idealize.ShloMosaic

/-- The single-precision pattern `0x7F800000` denotes `+∞`. -/
theorem inf_bits : Ideal.ofBits .f32 0x7F800000#32 = (⊤ : EReal) := by
  simp [Ideal.ofBits, Ideal.ieee]

/-- On the extended reals `max a (-a) < ⊤` holds exactly of the real numbers: at `⊤` the maximum is `⊤`, at `⊥` it is
    `-⊥ = ⊤`, and at a real `r` it is the real `|r|`. Only the direction used below is stated. -/
theorem real_of_max_neg_lt_top (a : EReal) (h : max a (-a) < ⊤) : ∃ r : ℝ, a = (r : EReal) := by
  induction a using EReal.rec with
  | bot => simp at h
  | coe r => exact ⟨r, rfl⟩
  | top => simp at h

/-- One entry of the test: if the ordered comparison `|a| < +∞` answers the word `1`, then `a` is a real number.
    Here `|a|` is `max a (-a)` and `+∞` is the value of the pattern `0x7F800000`. -/
theorem real_of_cmp_abs_lt_inf (a : EReal)
    (h : Ideal.cmp .olt (max a (-a)) (Ideal.ofBits .f32 0x7F800000#32) = 1#1) : ∃ r : ℝ, a = (r : EReal) := by
  rw [inf_bits] at h
  refine real_of_max_neg_lt_top a ?_
  by_contra hn
  simp [Ideal.cmp, hn] at h

/-- The scalar shape has one index. -/
theorem subsingleton_scalarIdx : Subsingleton (⟨0, ![]⟩ : Shape).Idx :=
  ⟨fun _ _ => funext fun d => d.elim0⟩

/-- The finiteness test read back, at one result index `j` of the scalar shape. For an array `x` of any shape `s`: if
    the and-reduction over all axes of the entrywise comparison `|x| < +∞` (the bound being the scalar constant
    `0x7F800000` broadcast to `s`), started from the word `1`, is `1`, then every entry of `x` is a real number. The shape
    witnesses `hb`, `hr`, `hu` are arbitrary. -/
theorem real_of_all_abs_lt_inf_at {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32) (j : (⟨0, ![]⟩ : Shape).Idx)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  haveI : Subsingleton (⟨0, ![]⟩ : Shape).Idx := subsingleton_scalarIdx
  have e := Host.reduce_andi_all _ _ hr hu j h i
  exact real_of_cmp_abs_lt_inf (x i) e

/-- The same, from the whole result being the all-ones word. -/
theorem real_of_all_abs_lt_inf {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu = fun _ => 1#1) :
    ∀ i, ∃ r : ℝ, x i = (r : EReal) :=
  real_of_all_abs_lt_inf_at hb hr hu x (fun d => d.elim0) (congrFun h _)

end FiniteTest

end
-- ==== Proof.Bridge.lean ====
/-
  The kernel's result is the reference's.

  Under the precondition every entry of the argument is a real number. The kernel's result at entry `k` is
  `exp (x k - shift)`, the shift merged from the online folds of the two halves of `x`; the reference's is
  `exp (x k - M) / (0 + ∑ exp (x j - M))` with `M` the largest entry. The sixteen blocks the folds run over are the
  sixteen consecutive stretches of `x`, so `M` is the least upper bound of the blocks' entries and the reference's sum is
  the sum over the blocks; the one-pass statistics then give the two-pass quotient.
-/
import proofs.«408562_j40991167873104_3_alg».proof.Defs
import proofs.«408562_j40991167873104_3_alg».proof.Proof.Gen.Pre_finite_inputs
import proofs.«408562_j40991167873104_3_alg».proof.Proof.KernelValue
import proofs.«408562_j40991167873104_3_alg».proof.Proof.RefValue
import proofs.«408562_j40991167873104_3_alg».proof.Proof.OnlineMath
import proofs.«408562_j40991167873104_3_alg».proof.Proof.LibFinite

set_option maxRecDepth 16384

noncomputable section

namespace Cert.Proof.Bridge

open Idealize.ShloMosaic Idealize.ShloMosaic.TcCoe Idealize.SL.Sem
open Cert.KernelIdeal Cert.KernelIdeal.Gen Cert.KernelIdeal.Value ValueIdx OnlineSoftmax SoftmaxIndex
open Cert.ReferenceIdeal.RefValue

variable (m : (ℓ : Loc nD τ sig) → Buf (Elt Ideal) ℓ) (ρ : Dev nD → PrngReg)

/-- Under the precondition every entry of the argument is a real number. -/
theorem arg_real (hpre : Cert.Pre_KernelIdeal (hPre_finite_inputs := Cert.Pre_finite_inputs.Gen.facts) m) (c : Dev nD)
    (k : S33554432.Idx) : ∃ r : ℝ, arg m c k = (r : EReal) := by
  have h := hpre c
  dsimp only [Cert.Pre_finite_inputs.fn] at h
  exact FiniteTest.real_of_all_abs_lt_inf _ _ _ _ h k

instance : Nonempty IB := ⟨ix2 ⟨0, by decide⟩ ⟨0, by decide⟩⟩

/-- Block `j` of half `h` is the stretch `8 h + j` of the argument. -/
theorem half_eq (c : Dev nD) (h : Fin 2) (j : ℕ) (hj : j < 8) (y : IB) :
    halfBlocks m ρ c h.val j y = arg m c (flat ⟨8 * h.val + j, by have := h.isLt; omega⟩ y) := by
  show Stats.pblk (V1 m ρ) c (8 * h.val + j) y = _
  exact pblk_eq m ρ c ⟨8 * h.val + j, by have := h.isLt; omega⟩ y

/-- The reference's sum, block by block and half by half. -/
theorem sum_blocks (c : Dev nD) (M : EReal) :
    ∑ j : S33554432.Idx, Ideal.exp (arg m c j - M)
      = ∑ h : Fin 2, ∑ j ∈ Finset.range 8, ∑ y : IB, Ideal.exp (halfBlocks m ρ c h.val j y - M) := by
  show _ = ∑ h : Fin 2, ∑ j ∈ Finset.range 8, ∑ y : IB, Ideal.exp (Stats.pblk (V1 m ρ) c (8 * h.val + j) y - M)
  rw [← sum_halves (fun n => ∑ y : IB, Ideal.exp (Stats.pblk (V1 m ρ) c n y - M)),
    sum_flat (fun j => Ideal.exp (arg m c j - M))]
  refine Finset.sum_congr rfl fun n _ => Finset.sum_congr rfl fun y _ => ?_
  rw [pblk_eq]

/-- THE TWO RESULTS ARE ONE: under the precondition the kernel's result array is the reference's term of the argument. -/
theorem result_eq (hpre : Cert.Pre_KernelIdeal (hPre_finite_inputs := Cert.Pre_finite_inputs.Gen.facts) m) (c : Dev nD) :
    W4 m ρ c (Proc.devRef .tc main_v3) = Cert.ReferenceIdeal.Read.val_main_v9 (F := Ideal) (arg m c) := by
  funext k
  obtain ⟨r, hr⟩ := arg_real m hpre c k
  have hreal : ∀ (h : Fin 2) (j : ℕ), j < 8 → ∀ y : IB, ∃ r : ℝ, halfBlocks m ρ c h.val j y = (r : EReal) :=
    fun h j hj y => by rw [half_eq m ρ c h j hj y]; exact arg_real m hpre c _
  have hM : ∀ z : EReal, refMax (arg m c) ≤ z ↔ ∀ (h : Fin 2) (j : ℕ), j < 8 → ∀ y : IB, halfBlocks m ρ c h.val j y ≤ z := by
    intro z
    rw [refMax_le_iff]
    constructor
    · intro hx h j hj y; rw [half_eq m ρ c h j hj y]; exact hx _
    · intro hb k'
      obtain ⟨n, y, rfl⟩ := flat_surj k'
      have hn := n.isLt
      have hb' := hb ⟨n.val / 8, by omega⟩ (n.val % 8) (Nat.mod_lt _ (by decide)) y
      rw [half_eq m ρ c ⟨n.val / 8, by omega⟩ (n.val % 8) (Nat.mod_lt _ (by decide)) y] at hb'
      have e : (⟨8 * (n.val / 8) + n.val % 8, by omega⟩ : Fin 16) = n := Fin.ext (by show 8 * (n.val / 8) + n.val % 8 = n.val; omega)
      rw [e] at hb'
      exact hb'
  have key := online_softmax_eq (ι := IB) (fun (h : Fin 2) j => halfBlocks m ρ c h.val j) hreal (refMax (arg m c)) hM r
  rw [Value.result_apply, Cert.ReferenceIdeal.RefValue.result_apply, hr, sum_blocks m ρ c]
  exact key

end Cert.Proof.Bridge

end
-- ==== Proof.lean ====
/-
  A two-pass softmax of a flat vector of 2^25 entries against `jax.nn.softmax`, over the extended reals.

  The kernel reshapes the vector to 262144 rows of 128 lanes and makes two calls. The first walks sixteen blocks of
  16384 rows, eight to each of two halves, keeping per half the largest entry so far `m` and the sum `l` of
  `exp (entry - m)`, rescaling `l` whenever `m` grows (the online fold); it leaves `(m, l)` per half. The second merges the
  two pairs, `m = max m₀ m₁`, `l = l₀ exp (m₀ - m) + l₁ exp (m₁ - m)`, and writes `exp (x - (m + log l))` for every entry.
  The reference takes the largest entry `M`, exponentiates every entry minus `M`, and divides by the sum of those.
  For real entries `m = M`, `l` is the reference's sum (at least 1, so its logarithm is real), and
  `exp (x - M - log l) = exp (x - M) / l`. The precondition (every entry finite) is used: at an infinite entry the
  rescaling and the logarithm no longer agree with the quotient.

  Modules: the kernel's run with its result array named (KernelRun); each call's staging contents read back as values
  (Stats, Normalize, over the payload readings of Payloads); the result array entry by entry (KernelValue); the
  reference entry by entry (RefValue); sixteen blocks tile the vector (Reindex); the one-pass statistics give the
  two-pass quotient (OnlineDefs, OnlineMath); finiteness (LibFinite); the two results are one (Bridge).
-/
import proofs.«408562_j40991167873104_3_alg».proof.Defs
import proofs.«408562_j40991167873104_3_alg».proof.Proof.Gen.Kernel
import proofs.«408562_j40991167873104_3_alg».proof.Proof.Gen.Kernel.Frame
import proofs.«408562_j40991167873104_3_alg».proof.Proof.Gen.KernelIdeal
import proofs.«408562_j40991167873104_3_alg».proof.Proof.Gen.KernelIdeal.Frame
import proofs.«408562_j40991167873104_3_alg».proof.Proof.Gen.ReferenceIdeal
import proofs.«408562_j40991167873104_3_alg».proof.Proof.Gen.ReferenceIdeal.Run
import proofs.«408562_j40991167873104_3_alg».proof.Proof.Gen.ReferenceIdeal.Read
import proofs.«408562_j40991167873104_3_alg».proof.Proof.Gen.Pre_finite_inputs
import proofs.«408562_j40991167873104_3_alg».proof.Proof.KernelRun
import proofs.«408562_j40991167873104_3_alg».proof.Proof.Bridge
import Idealize.ShloMosaic.Adequacy
import Idealize.ShloMosaic.Init

noncomputable section

namespace Cert.Proof

open Idealize.ShloMosaic Idealize.SL.Sem

/-- The word-level kernel runs and leaves its argument as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its argument as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the argument both programs run; the kernel's result array ends at the last boundary's
    contents, the reference's at its term of the argument, and under the precondition these are one array. -/
theorem algebraic : Cert.algebraic_KernelIdeal_ReferenceIdeal := by
  intro m ρ m' ρ' hpre hagree
  refine ⟨fun c => Cert.KernelIdeal.Gen.W4 m ρ c (Proc.devRef .tc Cert.KernelIdeal.main_v3),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, hagree c]
  exact (Cert.Proof.Bridge.result_eq m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
